-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S8192 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Kernel.lean ====
abbrev S8192x2048 : Shape := ⟨2, ![8192, 2048]⟩
abbrev S8192 : Shape := ⟨1, ![8192]⟩
abbrev S1x8192 : Shape := ⟨2, ![1, 8192]⟩
abbrev S8192x8192 : Shape := ⟨2, ![8192, 8192]⟩
abbrev S512x2048 : Shape := ⟨2, ![512, 2048]⟩
abbrev S1x512 : Shape := ⟨2, ![1, 512]⟩
abbrev S512x512 : Shape := ⟨2, ![512, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S1x8192, .f32⟩
  | .hbm, ⟨5, _⟩ => ⟨S8192x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x8192.size a
  hwx0_4 : ∀ i : grid0.Coords, EltTy.bits .f32 = 32 ∨ (Rect.block (s := S8192x8192) S512x512.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S1x8192, .f32⟩
  | .hbm, ⟨8, _⟩ => ⟨S8192x8192, .f32⟩
  | .hbm, ⟨9, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.Spec.lean ====
/-
  The masked linear layer as ONE function of its four argument arrays, index by index, on the extended reals:

      y[r, n] = Σ_{k < 2048} x[r, k] · (w[n, k] · μ[n, k]) + b[n]

  over x : [8192, 2048] (the tokens), w, μ : [8192, 2048] (the weight and its sparsity mask, both laid out
  output-feature major), b : [8192] (the bias) and y : [8192, 8192]. Row r of y depends on row r of x only; column n
  on row n of w and of μ and on entry n of b. The sum is a finite sum in a commutative monoid, so neither its order
  nor its grouping into tiles matters; the inner product w · μ is commutative. Nothing here needs an entry to be
  finite.
-/
import Idealize.ShloMosaic.PureOps.Ideal
import Idealize.ShloMosaic.Lib.ValueIdx

noncomputable section

namespace Cert.MaskedLinear

open Idealize.ShloMosaic Idealize.ShloMosaic.ValueIdx

/-- Entry (r, n) of the layer's result: the inner product of token row r with the masked weight row n, plus the
    bias of output feature n. -/
def entry (x w μ : FVec Ideal ⟨2, ![8192, 2048]⟩ .f32) (b : FVec Ideal ⟨1, ![8192]⟩ .f32) (r n : Fin 8192) : Ideal .f32 :=
  (∑ k : Fin 2048, x (ix2 r k) * (w (ix2 n k) * μ (ix2 n k))) + b (ix1 n)

/-- The layer's result array: `entry` at the two coordinates of the index. -/
def maskedLinear (x w μ : FVec Ideal ⟨2, ![8192, 2048]⟩ .f32) (b : FVec Ideal ⟨1, ![8192]⟩ .f32) :
    FVec Ideal ⟨2, ![8192, 8192]⟩ .f32 :=
  fun i => entry x w μ b (i 0) (i 1)

theorem maskedLinear_apply (x w μ : FVec Ideal ⟨2, ![8192, 2048]⟩ .f32) (b : FVec Ideal ⟨1, ![8192]⟩ .f32)
    (i : (⟨2, ![8192, 8192]⟩ : Shape).Idx) : maskedLinear x w μ b i = entry x w μ b (i 0) (i 1) := rfl

/-- The mask may stand on either side of the weight: the product of two extended reals is commutative. -/
theorem entry_comm (x w μ : FVec Ideal ⟨2, ![8192, 2048]⟩ .f32) (b : FVec Ideal ⟨1, ![8192]⟩ .f32) (r n : Fin 8192) :
    (∑ k : Fin 2048, x (ix2 r k) * (μ (ix2 n k) * w (ix2 n k))) + b (ix1 n) = entry x w μ b r n := by
  unfold entry
  congr 1
  exact Finset.sum_congr rfl fun k _ => by rw [mul_comm (μ (ix2 n k)) (w (ix2 n k))]

end Cert.MaskedLinear

end
-- ==== Proof.RefSide.lean ====
/-
  The reference, read index by index, is the masked linear layer. The reference multiplies mask by weight
  elementwise, transposes the product to [2048, 8192], contracts the tokens' axis 1 with the product's axis 0, and
  adds the bias broadcast along rows. Read at (r, n): the contraction is Σ_k x[r, k] · (μ·w)ᵀ[k, n] =
  Σ_k x[r, k] · (μ[n, k] · w[n, k]); the two broadcasts read b at n. That is the layer's entry with the two
  factors of the inner product exchanged.
-/
import proofs.«150809_j47304769798210_1_alg».proof.Proof.Gen.ReferenceIdeal.Read
import proofs.«150809_j47304769798210_1_alg».proof.Proof.Spec

noncomputable section

namespace Cert.ReferenceIdeal.RefValue

open Cert.ReferenceIdeal Cert.ReferenceIdeal.Read Idealize.ShloMosaic Idealize.ShloMosaic.ValueIdx Cert.MaskedLinear

/-- The left operand of the contraction is read at row r, column k. -/
theorem lhs_at (i : S8192x8192.Idx) (k : Fin 2048) : lidx_main_v2 i k = ix2 (i 0) k :=
  funext fun a => Fin.ext (by match a with | ⟨0, _⟩ => rfl | ⟨1, _⟩ => rfl)

/-- The right operand is the transposed product: its entry (k, n) is the product's entry (n, k). -/
theorem rhs_at (i : S8192x8192.Idx) (k : Fin 2048) : idx_main_v1 (ridx_main_v2 i k) = ix2 (i 1) k :=
  funext fun a => Fin.ext (by match a with | ⟨0, _⟩ => rfl | ⟨1, _⟩ => rfl)

/-- The bias, broadcast twice, is read at the column. -/
theorem bias_at (i : S8192x8192.Idx) : idx_main_v3 (idx_main_v4 i) = ix1 (i 1) :=
  funext fun a => Fin.ext (by match a with | ⟨0, _⟩ => rfl)

/-- The reference's result is the masked linear layer of its arguments (tokens, weight, mask, bias). -/
theorem reference_eq (x0 x1 : FVec Ideal S8192x2048 .f32) (x2 : FVec Ideal S8192 .f32) (x3 : FVec Ideal S8192x2048 .f32) :
    val_main_v5 (F := Ideal) x0 x1 x2 x3 = maskedLinear x0 x1 x3 x2 := by
  funext i
  rw [val_main_v5_apply, val_main_v2_apply, val_main_v4_apply, val_main_v3_apply, maskedLinear_apply]
  simp only [val_main_v1_apply, val_main_v0_apply, lhs_at, rhs_at, bias_at, Ideal.addf_def, Ideal.mulf_def]
  exact entry_comm x0 x1 x3 x2 (i 0) (i 1)

end Cert.ReferenceIdeal.RefValue

end
-- ==== Proof.Payload.lean ====
/-
  What one grid point's body stores, read at an entry. The body loads a [512, 2048] block of tokens, a [512, 2048]
  block of weights and the same block of the mask, and a [1, 512] block of the bias; it multiplies weight by mask
  elementwise, transposes the product to [2048, 512], contracts the token block's axis 1 with it into a zero
  accumulator, and adds the bias row broadcast over the 512 rows. (The two narrowings to bf16 are the identity on
  the extended reals.) Read at (p, q): Σ_k a[p, k] · (u[q, k] · v[q, k]) + β[0, q].
-/
import proofs.«150809_j47304769798210_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.ValueIdx

/-! ## The contraction's index functions, axis by axis -/

theorem lhs_axis0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_axis1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_axis0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_axis1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-! ## The three operations that are not pointwise, each read at an entry -/

/-- The matrix product into a zero accumulator, at (p, q): the sum over the 2048 contracted positions of the left
    operand's row p against the right operand's column q. -/
theorem matmul_at (a : FVec Ideal S512x2048 .bf16) (b : FVec Ideal S2048x512 .bf16) (p q : Fin 512) :
    matmul dot_S512x2048_S2048x512_S512x512_1_0_0_1_n_n none a b (constant (F := Ideal) S512x512 .f32 0x00000000#32) (ix2 p q)
      = ∑ k : Fin 2048, a (ix2 p k) * b (ix2 k q) := by
  refine (Ideal.matmul_constant_zero_apply dot_S512x2048_S2048x512_S512x512_1_0_0_1_n_n none a b (ix2 p q)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-- The transposed block at (k, q) is the block at (q, k). -/
theorem transpose_at (v : FVec Ideal S512x2048 .bf16) (k : Fin 2048) (q : Fin 512) :
    transpose S2048x512 [1, 0] v transposes_S512x2048_p1_0_S2048x512 (ix2 k q) = v (ix2 q k) :=
  transpose_apply [1, 0] v transposes_S512x2048_p1_0_S2048x512 (ix2 k q) (ix2 q k) (fun b => match b with
    | ⟨0, _⟩ => rfl
    | ⟨1, _⟩ => rfl)

/-- The bias row, recast to its own shape and broadcast over the rows, at (p, q) is the row's entry q. -/
theorem bias_row_at (β : FVec Ideal S1x512 .f32) (p q : Fin 512) :
    broadcastTo S512x512 (shapeCast S1x512 β shapeCasts_S1x512_S1x512) broadcasts_S1x512_S512x512 (ix2 p q)
      = β (ix2 (0 : Fin 1) q) := by
  rw [shapeCast_self]
  exact broadcastTo_apply β broadcasts_S1x512_S512x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])

/-! ## The stored value at an entry -/

/-- Entry (p, q) of what the body stores: the token block's row p against the masked weight block's row q, plus the
    bias block's entry q. -/
theorem stored_at (a u v : FVec Ideal S512x2048 .f32) (β : FVec Ideal S1x512 .f32) (p q : Fin 512) :
    k0_pay1 (F := Ideal) a u v β (ix2 p q)
      = (∑ k : Fin 2048, a (ix2 p k) * (u (ix2 q k) * v (ix2 q k))) + β (ix2 (0 : Fin 1) q) := by
  unfold k0_pay1
  refine (addf_apply _ _ (ix2 p q)).trans ?_
  refine congrArg₂ (· + ·) ?_ (bias_row_at β p q)
  refine (matmul_at _ _ p q).trans ?_
  refine Finset.sum_congr rfl fun k _ => ?_
  refine congrArg₂ (· * ·) rfl ?_
  exact (transpose_at _ k q).trans rfl

end Cert.KernelIdeal.KerValue

end
-- ==== Proof.Blocks.lean ====
/-
  The kernel's output array is the masked linear layer of its arguments. The grid has 16 × 16 points; point t works on
  output block (t mod 16, t div 16), each block 512 × 512. There it reads token rows [512·(t mod 16), +512), the
  weight and mask rows [512·(t div 16), +512) — all 2048 columns of each — and bias entries [512·(t div 16), +512) of
  the bias laid out as one row (the host recast [8192] → [1, 8192] before the region). So what the point writes back,
  at (p, q) of its block, is the layer's entry (512·(t mod 16) + p, 512·(t div 16) + q). Every index of the output
  lies in exactly the block of the point with t mod 16 = row div 512 and t div 16 = column div 512, so the blocks
  cover the array and the array after the run is the layer.
-/
import proofs.«150809_j47304769798210_1_alg».proof.Proof.Gen.KernelIdeal.Value
import proofs.«150809_j47304769798210_1_alg».proof.Proof.Payload
import proofs.«150809_j47304769798210_1_alg».proof.Proof.Spec
import Idealize.ShloMosaic.Lib.ValueLayout
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx Idealize.ShloMosaic.StableHlo Cert.MaskedLinear
open Idealize.ShloMosaic.Pipeline (Dat)

variable (m : (ℓ : Loc nD τ sig) → Buf (Elt Ideal) ℓ) (ρ : Dev nD → PrngReg)

/-! ## The bias as the region finds it -/

/-- The one host operation before the region recasts the bias to a single row. -/
theorem bias_row (c : Dev nD) :
    (V m c main_call0_v0 : S1x8192.Idx → Ideal .f32)
      = shapeCast S1x8192 (m ((c : Thread nD τ).loc main_arg2)) shapeCasts_S8192_S1x8192 := by
  dsimp only [Gen.V, Gen.hostOps0]; after_results; rfl

/-- Entry (0, n) of that row is the bias's entry n. -/
theorem bias_row_apply (c : Dev nD) (n : Fin 8192) :
    V m c main_call0_v0 (ix2 (0 : Fin 1) n) = m ((c : Thread nD τ).loc main_arg2) (ix1 n) := by
  rw [bias_row]
  exact shapeCast_a_1a_apply _ shapeCasts_S8192_S1x8192 0 n

/-- The four arrays the region stages, each at its literal type: tokens, weight, mask, and the bias as one row. -/
abbrev tokens (c : Dev nD) : FVec Ideal S8192x2048 .f32 := V m c main_arg0
abbrev weight (c : Dev nD) : FVec Ideal S8192x2048 .f32 := V m c main_arg1
abbrev mask (c : Dev nD) : FVec Ideal S8192x2048 .f32 := V m c main_arg3
abbrev biasRow (c : Dev nD) : FVec Ideal S1x8192 .f32 := V m c main_call0_v0

/-- The layer of the arrays as the region finds them: tokens, weight, mask, and the bias read off its row. -/
def layer (c : Dev nD) : S8192x8192.Idx → Ideal .f32 :=
  maskedLinear (tokens m c) (weight m c) (mask m c) (fun j => biasRow m c (ix2 (0 : Fin 1) (j 0)))

/-- The same layer of the arguments as launched. -/
theorem layer_eq (c : Dev nD) :
    layer m c = maskedLinear (m ((c : Thread nD τ).loc main_arg0)) (m ((c : Thread nD τ).loc main_arg1))
      (m ((c : Thread nD τ).loc main_arg3)) (m ((c : Thread nD τ).loc main_arg2)) := by
  unfold layer
  rw [show tokens m c = m ((c : Thread nD τ).loc main_arg0) from V_main_arg0 m c,
    show weight m c = m ((c : Thread nD τ).loc main_arg1) from V_main_arg1 m c,
    show mask m c = m ((c : Thread nD τ).loc main_arg3) from V_main_arg3 m c]
  congr 1
  funext j
  obtain ⟨n, rfl⟩ : ∃ n : Fin 8192, j = ix1 n := ⟨j 0, eq_ix1 j⟩
  exact bias_row_apply m c n

/-! ## Which blocks a point touches -/

theorem hz : (![0, 0] : Fin 2 → Nat) = fun _ => 0 := funext fun a => by fin_cases a <;> rfl

/-- The printed index maps in closed form, decided over the 256 points: tokens at block row t mod 16; weight and mask
    at block row t div 16; the bias row at block column t div 16; the output at block (t mod 16, t div 16). -/
theorem block_indices : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val / 16
    ∧ win0_4.index t (0 : Fin 2) = t.val % 16 ∧ win0_4.index t (1 : Fin 2) = t.val / 16 :=
  (by decide +kernel : ∀ t : Fin grid0.N, _)

/-! ## What a point writes back -/

/-- Point t writes back block t of the layer. -/
theorem flushed_eq (c : Dev nD) (t : Fin cfg0.N) :
    (dats m 0 c).flushed 4 t = ((cfg0.win 4).blk t).view.read (Elt Ideal) (layer m c) := by
  rw [Value.flushed4]
  unfold out0_4
  rw [View.canon_unit_zero hz]
  simp only [View.ld_unit_zero (S := S512x2048) hz, View.ld_unit_zero (S := S1x512) hz]
  funext j
  obtain ⟨p, q, rfl⟩ : ∃ (p q : Fin 512), j = ix2 p q := ⟨j 0, j 1, eq_ix2 j⟩
  show k0_pay1 (F := Ideal) (iblk m c 0 t) (iblk m c 1 t) (iblk m c 2 t) (iblk m c 3 t) (ix2 p q)
    = entry (tokens m c) (weight m c) (mask m c) (fun j => biasRow m c (ix2 (0 : Fin 1) (j 0)))
        ((((cfg0.win 4).blk t).view.emb (ix2 p q)) 0) ((((cfg0.win 4).blk t).view.emb (ix2 p q)) 1)
  refine (stored_at (iblk m c 0 t) (iblk m c 1 t) (iblk m c 2 t) (iblk m c 3 t) p q).trans ?_
  unfold entry
  obtain ⟨e00, e01, e10, e11, e20, e21, e30, e31, e40, e41⟩ := block_indices t
  have h0 : ∀ k : Fin 2048, ((cfg0.win 0).blk t).view.emb (ix2 p k) = ix2 ((((cfg0.win 4).blk t).view.emb (ix2 p q)) 0) k := by
    intro k; funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 2048 + 1 * k.val = k.val; omega
  have h1 : ∀ k : Fin 2048, ((cfg0.win 1).blk t).view.emb (ix2 q k) = ix2 ((((cfg0.win 4).blk t).view.emb (ix2 p q)) 1) k := by
    intro k; funext a; apply Fin.ext
    match a with
    | ⟨0, _⟩ => show win0_1.index t (0 : Fin 2) * 512 + 1 * q.val = win0_4.index t (1 : Fin 2) * 512 + 1 * q.val; omega
    | ⟨1, _⟩ => show win0_1.index t (1 : Fin 2) * 2048 + 1 * k.val = k.val; omega
  have h2 : ∀ k : Fin 2048, ((cfg0.win 2).blk t).view.emb (ix2 q k) = ix2 ((((cfg0.win 4).blk t).view.emb (ix2 p q)) 1) k := by
    intro k; funext a; apply Fin.ext
    match a with
    | ⟨0, _⟩ => show win0_2.index t (0 : Fin 2) * 512 + 1 * q.val = win0_4.index t (1 : Fin 2) * 512 + 1 * q.val; omega
    | ⟨1, _⟩ => show win0_2.index t (1 : Fin 2) * 2048 + 1 * k.val = k.val; omega
  have h3 : ((cfg0.win 3).blk t).view.emb (ix2 (0 : Fin 1) q) = ix2 (0 : Fin 1) ((((cfg0.win 4).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 512 + 1 * q.val = win0_4.index t (1 : Fin 2) * 512 + 1 * q.val; omega
  refine congrArg₂ (· + ·) (Finset.sum_congr rfl fun k _ => ?_) ?_
  · show tokens m c (((cfg0.win 0).blk t).view.emb (ix2 p k))
        * (weight m c (((cfg0.win 1).blk t).view.emb (ix2 q k)) * mask m c (((cfg0.win 2).blk t).view.emb (ix2 q k))) = _
    rw [h0 k, h1 k, h2 k]
    rfl
  · show biasRow m c (((cfg0.win 3).blk t).view.emb (ix2 (0 : Fin 1) q)) = _
    rw [h3]
    rfl

/-! ## The blocks cover the array -/

/-- An index is in point t's block iff each coordinate is in the block's range on its axis. -/
theorem mem_blk (t : Fin cfg0.N) (i : S8192x8192.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0).slice (win0_4.rect t)).set ↔ _
  rw [View.set_slice_whole, Rect.mem_set_unit]
  exact Iff.rfl

/-- Every index is in the block of the point t = 16 · (column div 512) + row div 512, and every point writes back. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  have hN : grid0.N = 256 := N_0
  obtain ⟨t, ht⟩ : ∃ t : Fin cfg0.N, t.val = (i 1).val / 512 * 16 + (i 0).val / 512 :=
    ⟨⟨(i 1).val / 512 * 16 + (i 0).val / 512, by show _ < grid0.N; omega⟩, rfl⟩
  obtain ⟨e00, e01, e10, e11, e20, e21, e30, e31, e40, e41⟩ := block_indices t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-! ## The array after the run -/

/-- After the last point the output array is the layer of the arguments as launched. -/
theorem final (c : Dev nD) :
    (dats m 0 c).arrAt 4 cfg0.N = maskedLinear (m ((c : Thread nD τ).loc main_arg0)) (m ((c : Thread nD τ).loc main_arg1))
      (m ((c : Thread nD τ).loc main_arg3)) (m ((c : Thread nD τ).loc main_arg2)) :=
  ((dats m 0 c).arrAt_eq_of_cover 4 (layer m c) (fun t _ => flushed_eq m c t) covered).trans (layer_eq m c)

/-- Every weakly fair execution of the kernel's program ends with the result array at the layer of the arguments and
    the arguments unchanged. -/
theorem run : θ_run defs (onTc (τ := τ) (main (F := Ideal))) ⟨m, fun _ => 0, ρ⟩ fun r => ∀ c : Dev nD,
      r.2.mem ((c : Thread nD τ).loc main_v0) = maskedLinear (m ((c : Thread nD τ).loc main_arg0)) (m ((c : Thread nD τ).loc main_arg1))
        (m ((c : Thread nD τ).loc main_arg3)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KerValue

end
-- ==== Proof.lean ====
/-
  A linear layer whose weight carries an elementwise sparsity mask, y = x · (μ ∘ w)ᵀ + b with x : [8192, 2048],
  w, μ : [8192, 2048], b : [8192], y : [8192, 8192], computed two ways.

  The kernel tiles y into 16 × 16 blocks of 512 × 512. For a block it takes 512 token rows and 512 rows of the weight
  and of the mask, all 2048 columns resident, multiplies weight by mask entry by entry, contracts over the 2048
  columns into a zero accumulator, and adds the block's 512 bias entries to every row. The reference multiplies mask
  by weight over the whole arrays, transposes, contracts once, and adds the bias broadcast over the rows.

  On the extended reals both are, at every (r, n), the finite sum Σ_k x[r, k] · (w[n, k] · μ[n, k]) plus b[n]: the
  kernel's changes of float format are the identity there, its zero accumulator is the sum's neutral element, its
  tiling only says which grid point computes which entries, and the one difference left — weight · mask against
  mask · weight — is the commutativity of the product. No entry has to be finite for any of this, so the
  precondition is never opened.

  The pieces: Proof/Spec.lean states the layer as one function of the four arrays; Proof/RefSide.lean reads the
  reference's operations at an index and finds that function; Proof/Payload.lean reads what one grid point stores at
  an entry of its block; Proof/Blocks.lean places each block in the array and shows the blocks cover it. The kernel's
  idealization rewrote no operation, so there is nothing to preserve beyond the program's own text.
-/
import proofs.«150809_j47304769798210_1_alg».proof.Defs
import proofs.«150809_j47304769798210_1_alg».proof.Proof.Gen.Kernel
import proofs.«150809_j47304769798210_1_alg».proof.Proof.Gen.Kernel.Skeleton
import proofs.«150809_j47304769798210_1_alg».proof.Proof.Gen.Kernel.Launch
import proofs.«150809_j47304769798210_1_alg».proof.Proof.Gen.Kernel.Points
import proofs.«150809_j47304769798210_1_alg».proof.Proof.Gen.Kernel.Frame
import proofs.«150809_j47304769798210_1_alg».proof.Proof.Gen.KernelIdeal
import proofs.«150809_j47304769798210_1_alg».proof.Proof.Gen.KernelIdeal.Skeleton
import proofs.«150809_j47304769798210_1_alg».proof.Proof.Gen.KernelIdeal.Launch
import proofs.«150809_j47304769798210_1_alg».proof.Proof.Gen.KernelIdeal.Points
import proofs.«150809_j47304769798210_1_alg».proof.Proof.Gen.KernelIdeal.Frame
import proofs.«150809_j47304769798210_1_alg».proof.Proof.Gen.ReferenceIdeal
import proofs.«150809_j47304769798210_1_alg».proof.Proof.Gen.Pre_finite_inputs
import proofs.«150809_j47304769798210_1_alg».proof.Proof.Gen.KernelIdeal.Value
import proofs.«150809_j47304769798210_1_alg».proof.Proof.Gen.ReferenceIdeal.Run
import proofs.«150809_j47304769798210_1_alg».proof.Proof.Gen.ReferenceIdeal.Read
import proofs.«150809_j47304769798210_1_alg».proof.Proof.Spec
import proofs.«150809_j47304769798210_1_alg».proof.Proof.RefSide
import proofs.«150809_j47304769798210_1_alg».proof.Proof.Payload
import proofs.«150809_j47304769798210_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is six host operations in a row: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array ends at the masked linear layer of its arguments
    (Proof/Blocks.lean) and the reference's at its six operations' term of the same arguments, which is that layer
    (Proof/RefSide.lean). -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v5_eq _ _ _ _).trans (Cert.ReferenceIdeal.RefValue.reference_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
